-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S1 : Shape := ⟨1, ![1]⟩
abbrev S1x128 : Shape := ⟨2, ![1, 128]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg5 : FVec F S128 .f32) (main_arg6 : FVec F S128x256 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x500000 32) (main_arg2 : FVec F S1 .f32) (main_arg3 : FVec F S1x128 .f32) (main_arg4 : FVec F S128x128 .f32) (main_arg5 : FVec F S128 .f32) (main_arg6 : FVec F S128x256 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x500000 : Shape := ⟨2, ![2, 500000]⟩
abbrev S1 : Shape := ⟨1, ![1]⟩
abbrev S1x128 : Shape := ⟨2, ![1, 128]⟩
abbrev S128x128 : Shape := ⟨2, ![128, 128]⟩
abbrev S128 : Shape := ⟨1, ![128]⟩
abbrev S128x256 : Shape := ⟨2, ![128, 256]⟩
abbrev S5000x128 : Shape := ⟨2, ![5000, 128]⟩
abbrev S_ : Shape := ⟨0, ![]⟩
abbrev S2x500000x1 : Shape := ⟨3, ![2, 500000, 1]⟩
abbrev S2x500000x128 : Shape := ⟨3, ![2, 500000, 128]⟩
abbrev S500000x2x128 : Shape := ⟨3, ![500000, 2, 128]⟩
abbrev S500000x256 : Shape := ⟨2, ![500000, 256]⟩
abbrev S256x128 : Shape := ⟨2, ![256, 128]⟩
abbrev S500000x128 : Shape := ⟨2, ![500000, 128]⟩
abbrev S5000x256 : Shape := ⟨2, ![5000, 256]⟩

abbrev nBuf : Space → Nat
  | .hbm => 25
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S1, .f32⟩
  | .hbm, ⟨3, _⟩ => ⟨S1x128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S1x128, .f32⟩
  | .hbm, ⟨10, _⟩ => ⟨S100000x128, .f32⟩
  | .hbm, ⟨11, _⟩ => ⟨S_, .i32⟩
  | .hbm, ⟨12, _⟩ => ⟨S2x500000, .i32⟩
  | .hbm, ⟨13, _⟩ => ⟨S2x500000, .i1⟩
  | .hbm, ⟨14, _⟩ => ⟨S_, .i32⟩
  | .hbm, ⟨15, _⟩ => ⟨S2x500000, .i32⟩
  | .hbm, ⟨16, _⟩ => ⟨S2x500000, .i32⟩
  | .hbm, ⟨17, _⟩ => ⟨S2x500000, .i32⟩
  | .hbm, ⟨18, _⟩ => ⟨S2x500000x1, .i32⟩
  | .hbm, ⟨19, _⟩ => ⟨S2x500000x128, .f32⟩
  | .hbm, ⟨20, _⟩ => ⟨S500000x2x128, .f32⟩
  | .hbm, ⟨21, _⟩ => ⟨S500000x256, .f32⟩
  | .hbm, ⟨22, _⟩ => ⟨S256x128, .f32⟩
  | .hbm, ⟨23, _⟩ => ⟨S1x128, .f32⟩
  | .hbm, ⟨24, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S2x500000 : S_.BroadcastsInDim S2x500000 (![] : Fin 0 → Fin S2x500000.rank)
  bcast_S2x500000_S2x500000x1_0_1 : S2x500000.BroadcastsInDim S2x500000x1 (![0, 1] : Fin 2 → Fin S2x500000x1.rank)
  transposes_S2x500000x128_S500000x2x128_1_0_2 : S2x500000x128.Transposes [1, 0, 2] S500000x2x128
  shapeCasts_S500000x2x128_S500000x256 : S500000x2x128.ShapeCasts S500000x256
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S5000x128_S128x128_S5000x128_1_0_0_1_n_n_wf : DotDims.WF S5000x128 S128x128 S5000x128 [1] [0] [0] [1] [] []
  gather_S100000x128_S2x500000x1_S2x500000x128_2_0_n_n_0_2_1128_wf : GatherDims.WF S100000x128 S2x500000x1 S2x500000x128 [2] [0] [] [0] [] 2 ![1, 128]
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S500000x256.size a
  hwx1_0 : ∀ i : grid1.Coords, EltTy.bits .f32 = 32 ∨ (Rect.block (s := S500000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S500000x128.size a
  hwx1_3 : ∀ i : grid1.Coords, EltTy.bits .f32 = 32 ∨ (Rect.block (s := S500000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S2x500000x1_S2x500000x128_2_0_n_n_0_2_1128 : GatherDims S100000x128 S2x500000x1 S2x500000x128 where
  offsetDims := [2]
  collapsedSliceDims := [0]
  operandBatchingDims := []
  startIndicesBatchingDims := []
  startIndexMap := [0]
  indexVectorDim := 2
  sliceSizes := ![1, 128]
  wf := gather_S100000x128_S2x500000x1_S2x500000x128_2_0_n_n_0_2_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S1 : Shape := ⟨1, ![1]⟩
abbrev S1x128 : Shape := ⟨2, ![1, 128]⟩
abbrev S128x128 : Shape := ⟨2, ![128, 128]⟩
abbrev S128 : Shape := ⟨1, ![128]⟩
abbrev S128x256 : Shape := ⟨2, ![128, 256]⟩
abbrev S_ : Shape := ⟨0, ![]⟩
abbrev S2x500000x1 : Shape := ⟨3, ![2, 500000, 1]⟩
abbrev S2x500000x128 : Shape := ⟨3, ![2, 500000, 128]⟩
abbrev S500000x2x128 : Shape := ⟨3, ![500000, 2, 128]⟩
abbrev S500000x256 : Shape := ⟨2, ![500000, 256]⟩
abbrev S256x128 : Shape := ⟨2, ![256, 128]⟩
abbrev S500000x128 : Shape := ⟨2, ![500000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S1, .f32⟩
  | .hbm, ⟨3, _⟩ => ⟨S1x128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S2x500000, .i32⟩
  | .hbm, ⟨15, _⟩ => ⟨S2x500000, .i1⟩
  | .hbm, ⟨16, _⟩ => ⟨S_, .i32⟩
  | .hbm, ⟨17, _⟩ => ⟨S2x500000, .i32⟩
  | .hbm, ⟨18, _⟩ => ⟨S2x500000, .i32⟩
  | .hbm, ⟨19, _⟩ => ⟨S2x500000, .i32⟩
  | .hbm, ⟨20, _⟩ => ⟨S2x500000x1, .i32⟩
  | .hbm, ⟨21, _⟩ => ⟨S2x500000x128, .f32⟩
  | .hbm, ⟨22, _⟩ => ⟨S500000x2x128, .f32⟩
  | .hbm, ⟨23, _⟩ => ⟨S500000x256, .f32⟩
  | .hbm, ⟨24, _⟩ => ⟨S256x128, .f32⟩
  | .hbm, ⟨25, _⟩ => ⟨S500000x128, .f32⟩
  | .hbm, ⟨26, _⟩ => ⟨S1x128, .f32⟩
  | .hbm, ⟨27, _⟩ => ⟨S500000x128, .f32⟩
  | .hbm, ⟨28, _⟩ => ⟨S500000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2x500000 : S_.BroadcastsInDim S2x500000 (![] : Fin 0 → Fin S2x500000.rank)
  bcast_S2x500000_S2x500000x1_0_1 : S2x500000.BroadcastsInDim S2x500000x1 (![0, 1] : Fin 2 → Fin S2x500000x1.rank)
  transposes_S2x500000x128_S500000x2x128_1_0_2 : S2x500000x128.Transposes [1, 0, 2] S500000x2x128
  shapeCasts_S500000x2x128_S500000x256 : S500000x2x128.ShapeCasts S500000x256
  transposes_S128x256_S256x128_1_0 : S128x256.Transposes [1, 0] S256x128
  bcast_S1x128_S500000x128_0_1 : S1x128.BroadcastsInDim S500000x128 (![0, 1] : Fin 2 → Fin S500000x128.rank)
  dot_S100000x128_S128x128_S100000x128_1_0_0_1_n_n_wf : DotDims.WF S100000x128 S128x128 S100000x128 [1] [0] [0] [1] [] []
  gather_S100000x128_S2x500000x1_S2x500000x128_2_0_n_n_0_2_1128_wf : GatherDims.WF S100000x128 S2x500000x1 S2x500000x128 [2] [0] [] [0] [] 2 ![1, 128]
  dot_S500000x256_S256x128_S500000x128_1_0_0_1_n_n_wf : DotDims.WF S500000x256 S256x128 S500000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S2x500000x1_S2x500000x128_2_0_n_n_0_2_1128 : GatherDims S100000x128 S2x500000x1 S2x500000x128 where
  offsetDims := [2]
  collapsedSliceDims := [0]
  operandBatchingDims := []
  startIndicesBatchingDims := []
  startIndexMap := [0]
  indexVectorDim := 2
  sliceSizes := ![1, 128]
  wf := gather_S100000x128_S2x500000x1_S2x500000x128_2_0_n_n_0_2_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.Linear.lean ====
/-
  The affine map both programs compute, as ONE function of the arrays, entry by entry over the extended reals:
  entry (r, j) of the result is the inner product of row r of the input with the weights of output channel j,
  plus the bias of channel j.  Two arrangements of the same number: the weights as the layer stores them
  (one row per output channel, a vector of biases), and the weights already transposed (one column per output
  channel) with the biases as a single row.  Both are a sum of the same products in the same order, so no law of
  the extended reals beyond reading each array at the right entry is needed to pass from one to the other.
-/
import Idealize.ShloMosaic.PureOps.Ideal
import Idealize.ShloMosaic.Lib.ValueIdx

noncomputable section

namespace Cert.Linear

open Idealize.ShloMosaic Idealize.ShloMosaic.ValueIdx

/-- Rows of `x` against rows of `w` (weights stored one row per output channel), plus the channel's bias. -/
def lin (M K N : Nat) (x : FVec Ideal ⟨2, ![M, K]⟩ .f32) (w : FVec Ideal ⟨2, ![N, K]⟩ .f32)
    (b : FVec Ideal ⟨1, ![N]⟩ .f32) : FVec Ideal ⟨2, ![M, N]⟩ .f32 :=
  fun i => (∑ k : Fin K, x (ix2 (⟨(i 0).val, idx2_lt0 i⟩ : Fin M) k) * w (ix2 (⟨(i 1).val, idx2_lt1 i⟩ : Fin N) k))
    + b (ix1 (⟨(i 1).val, idx2_lt1 i⟩ : Fin N))

/-- Rows of `x` against columns of `wt` (weights transposed beforehand), plus the channel's entry of the bias row. -/
def linT (M K N : Nat) (x : FVec Ideal ⟨2, ![M, K]⟩ .f32) (wt : FVec Ideal ⟨2, ![K, N]⟩ .f32)
    (b2 : FVec Ideal ⟨2, ![1, N]⟩ .f32) : FVec Ideal ⟨2, ![M, N]⟩ .f32 :=
  fun i => (∑ k : Fin K, x (ix2 (⟨(i 0).val, idx2_lt0 i⟩ : Fin M) k) * wt (ix2 k (⟨(i 1).val, idx2_lt1 i⟩ : Fin N)))
    + b2 (ix2 (0 : Fin 1) (⟨(i 1).val, idx2_lt1 i⟩ : Fin N))

/-- The transposed arrangement at an entry named by its coordinates. -/
theorem linT_ix2 (M K N : Nat) (x : FVec Ideal ⟨2, ![M, K]⟩ .f32) (wt : FVec Ideal ⟨2, ![K, N]⟩ .f32)
    (b2 : FVec Ideal ⟨2, ![1, N]⟩ .f32) (r : Fin M) (q : Fin N) :
    linT M K N x wt b2 (ix2 r q) = (∑ k : Fin K, x (ix2 r k) * wt (ix2 k q)) + b2 (ix2 (0 : Fin 1) q) := rfl

/-- If the transposed weights and the bias row are the stored weights and the bias vector read at the matching
    entries, the two arrangements are the same array. -/
theorem linT_eq_lin (M K N : Nat) (x : FVec Ideal ⟨2, ![M, K]⟩ .f32) (wt : FVec Ideal ⟨2, ![K, N]⟩ .f32)
    (b2 : FVec Ideal ⟨2, ![1, N]⟩ .f32) (w : FVec Ideal ⟨2, ![N, K]⟩ .f32) (b : FVec Ideal ⟨1, ![N]⟩ .f32)
    (hw : ∀ (k : Fin K) (j : Fin N), wt (ix2 k j) = w (ix2 j k)) (hb : ∀ j : Fin N, b2 (ix2 (0 : Fin 1) j) = b (ix1 j)) :
    linT M K N x wt b2 = lin M K N x w b := by
  funext i
  unfold linT lin
  rw [hb]
  exact congrArg (· + b (ix1 (⟨(i 1).val, idx2_lt1 i⟩ : Fin N))) (Finset.sum_congr rfl fun k _ => by rw [hw])

end Cert.Linear

end
-- ==== Proof.RefValue.lean ====
/-
  The reference's two results as the affine map of its arguments.  Read one host operation at a time, entry (r, j)
  of the node result is the sum over k of x[r, k] · W[j, k] (the product against the transposed weights read back at
  the stored weights) plus b[j] (the bias broadcast twice), and the edge result is the same map of the gathered edge
  input, the edge weights and the edge bias.  The edge input (compare, add, select, gather, transpose, reshape of the
  node features and the edge index array) is kept as one unopened function of those two arguments.
-/
import proofs.«165736_j15401752724191_1_alg».proof.Proof.Gen.ReferenceIdeal.Read
import proofs.«165736_j15401752724191_1_alg».proof.Proof.Linear

noncomputable section

namespace Cert.ReferenceIdeal.RefValue

open Idealize.ShloMosaic Idealize.ShloMosaic.TcCoe Idealize.ShloMosaic.ValueIdx
open Cert.ReferenceIdeal Cert.ReferenceIdeal.Read

/-- The node result is the affine map of the node features, the node weights and the node bias. -/
theorem node_eq (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v4 (F := Ideal) x0 x4 x5 = Cert.Linear.lin 100000 128 128 x0 x4 x5 := by
  funext i
  rw [val_main_v4_apply, val_main_v1_apply, val_main_v3_apply, val_main_v2_apply]
  simp only [val_main_v0_apply]
  have el : ∀ k : Fin 128, lidx_main_v1 i k = ix2 (⟨(i 0).val, idx2_lt0 i⟩ : Fin 100000) k := fun k =>
    funext fun a => match a with | ⟨0, _⟩ => rfl | ⟨1, _⟩ => rfl
  have er : ∀ k : Fin 128, idx_main_v0 (ridx_main_v1 i k) = ix2 (⟨(i 1).val, idx2_lt1 i⟩ : Fin 128) k := fun k =>
    funext fun a => match a with | ⟨0, _⟩ => rfl | ⟨1, _⟩ => rfl
  have eb : idx_main_v2 (idx_main_v3 i) = ix1 (⟨(i 1).val, idx2_lt1 i⟩ : Fin 128) :=
    funext fun a => match a with | ⟨0, _⟩ => rfl
  simp only [el, er, eb]
  rfl

/-- The edge result is the affine map of the edge input, the edge weights and the edge bias. -/
theorem edge_eq (x0 : (⟨S100000x128, .f32⟩ : BufTy).Contents (Elt Ideal)) (x1 : (⟨S2x500000, .i32⟩ : BufTy).Contents (Elt Ideal))
    (x6 : (⟨S128x256, .f32⟩ : BufTy).Contents (Elt Ideal)) (x7 : (⟨S128, .f32⟩ : BufTy).Contents (Elt Ideal)) :
    val_main_v18 (F := Ideal) x0 x1 x6 x7 = Cert.Linear.lin 500000 256 128 (val_main_v13 (F := Ideal) x0 x1) x6 x7 := by
  funext i
  rw [val_main_v18_apply, val_main_v15_apply, val_main_v17_apply, val_main_v16_apply]
  generalize val_main_v13 (F := Ideal) x0 x1 = e
  simp only [val_main_v14_apply]
  have el : ∀ k : Fin 256, lidx_main_v15 i k = ix2 (⟨(i 0).val, idx2_lt0 i⟩ : Fin 500000) k := fun k =>
    funext fun a => match a with | ⟨0, _⟩ => rfl | ⟨1, _⟩ => rfl
  have er : ∀ k : Fin 256, idx_main_v14 (ridx_main_v15 i k) = ix2 (⟨(i 1).val, idx2_lt1 i⟩ : Fin 128) k := fun k =>
    funext fun a => match a with | ⟨0, _⟩ => rfl | ⟨1, _⟩ => rfl
  have eb : idx_main_v16 (idx_main_v17 i) = ix1 (⟨(i 1).val, idx2_lt1 i⟩ : Fin 128) :=
    funext fun a => match a with | ⟨0, _⟩ => rfl
  simp only [el, er, eb]
  rfl

end Cert.ReferenceIdeal.RefValue

end
-- ==== Proof.Boundary.lean ====
/-
  The arrays at the boundaries of @main's four segments, read back to the launch memory.
  Before the node projection the host transposes the node weights and reshapes the node bias to a row; the node
  features are as launched.  Between the two projections the host builds the edge input (the endpoints' feature rows
  gathered by the edge index array, the two endpoints laid side by side) from the node features and the index array,
  transposes the edge weights and reshapes the edge bias; none of these operations writes an argument or the node
  result.  So each projection's result array, at the end, is what its pallas_call left, and each pallas_call found in
  its three input arrays exactly those host values of the launch memory.
-/
import proofs.«165736_j15401752724191_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The edge input as the host builds it: negative indices wrapped by the table's height, the endpoints' rows
    gathered, the endpoint axis moved inside and merged with the feature axis.  Never opened. -/
def edgeInput (x0 : (⟨S100000x128, .f32⟩ : BufTy).Contents (Elt Ideal)) (x1 : (⟨S2x500000, .i32⟩ : BufTy).Contents (Elt Ideal)) :
    (⟨S500000x256, .f32⟩ : BufTy).Contents (Elt Ideal) :=
  shapeCast _ (transpose S500000x2x128 [1, 0, 2] (Host.gather gather_S100000x128_S2x500000x1_S2x500000x128_2_0_n_n_0_2_1128 x0 (broadcastInDim S2x500000x1 ![0, 1] bcast_S2x500000_S2x500000x1_0_1 (select (cmpi .slt x1 (broadcastInDim S2x500000 ![] bcast_S_S2x500000 (constantI S_ 32 0#32))) (addi x1 (broadcastInDim S2x500000 ![] bcast_S_S2x500000 (constantI S_ 32 100000#32))) x1))) transposes_S2x500000x128_S500000x2x128_1_0_2) shapeCasts_S500000x2x128_S500000x256

/-! ## The result arrays at the end -/

/-- The node result at the end is what the first pallas_call left: the second stretch of host operations and the
    second pallas_call do not write it. -/
theorem W4_node (c : Dev nD) : W4 m ρ c (Proc.devRef .tc main_v2) = (dat0 (V1 m ρ) c).arrAt 3 cfg0.N :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

/-- The edge result at the end is what the second pallas_call left. -/
theorem W4_edge (c : Dev nD) : W4 m ρ c (Proc.devRef .tc main_v14) = (dat1 (V3 m ρ) c).arrAt 3 cfg1.N :=
  W4_arr m ρ c 3

/-! ## What the first pallas_call finds -/

theorem V1_x (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V1_wt (c : Dev nD) : V1 m ρ c main_v0 = transpose S128x128 [1, 0] (m ((c : Thread nD τ).loc main_arg4)) transposes_S128x128_S128x128_1_0 := by
  show StableHlo.after hostOps0 (W0 m ρ c) (Proc.devRef .tc main_v0) = _
  after_results

theorem V1_b (c : Dev nD) : V1 m ρ c main_v1 = shapeCast _ (m ((c : Thread nD τ).loc main_arg5)) shapeCasts_S128_S1x128 := by
  show StableHlo.after hostOps0 (W0 m ρ c) (Proc.devRef .tc main_v1) = _
  after_results
  rfl

/-! ## The arguments between the two pallas_calls -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_x m ρ c)

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## What the second pallas_call finds -/

theorem V3_x (c : Dev nD) : V3 m ρ c main_v11 = edgeInput (m ((c : Thread nD τ).loc main_arg0)) (m ((c : Thread nD τ).loc main_arg1)) := by
  show StableHlo.after hostOps1 (W2 m ρ c) (Proc.devRef .tc main_v11) = _
  after_results
  rw [W2_arg0, W2_arg1]
  rfl

theorem V3_wt (c : Dev nD) : V3 m ρ c main_v12 = transpose S256x128 [1, 0] (m ((c : Thread nD τ).loc main_arg6)) transposes_S128x256_S256x128_1_0 := by
  show StableHlo.after hostOps1 (W2 m ρ c) (Proc.devRef .tc main_v12) = _
  after_results
  rw [W2_arg6]

theorem V3_b (c : Dev nD) : V3 m ρ c main_v13 = shapeCast _ (m ((c : Thread nD τ).loc main_arg7)) shapeCasts_S128_S1x128 := by
  show StableHlo.after hostOps1 (W2 m ρ c) (Proc.devRef .tc main_v13) = _
  after_results
  rw [W2_arg7]
  rfl

/-! ## The two layout operations read at an entry -/

/-- The transposed node weights at (k, j) are the stored weights at (j, k). -/
theorem nodeWt_apply (w : (⟨S128x128, .f32⟩ : BufTy).Contents (Elt Ideal)) (k : Fin 128) (j : Fin 128) :
    transpose S128x128 [1, 0] w transposes_S128x128_S128x128_1_0 (ix2 k j) = w (ix2 j k) :=
  transpose_apply [1, 0] w transposes_S128x128_S128x128_1_0 (ix2 k j) (ix2 j k) (fun b => match b with
    | ⟨0, _⟩ => rfl
    | ⟨1, _⟩ => rfl)

/-- The transposed edge weights at (k, j) are the stored weights at (j, k). -/
theorem edgeWt_apply (w : (⟨S128x256, .f32⟩ : BufTy).Contents (Elt Ideal)) (k : Fin 256) (j : Fin 128) :
    transpose S256x128 [1, 0] w transposes_S128x256_S256x128_1_0 (ix2 k j) = w (ix2 j k) :=
  transpose_apply [1, 0] w transposes_S128x256_S256x128_1_0 (ix2 k j) (ix2 j k) (fun b => match b with
    | ⟨0, _⟩ => rfl
    | ⟨1, _⟩ => rfl)

/-- The bias reshaped to a row, at (0, j), is the bias at j. -/
theorem biasRow_apply (b : (⟨S128, .f32⟩ : BufTy).Contents (Elt Ideal)) (j : Fin 128) :
    shapeCast S1x128 b shapeCasts_S128_S1x128 (ix2 (0 : Fin 1) j) = b (ix1 j) :=
  shapeCast_apply b shapeCasts_S128_S1x128 (ix2 (0 : Fin 1) j) (ix1 j)
    (by rewrite [Shape.rowMajor_val_two, Shape.rowMajor_val_one]; show j.val = 0 * 128 + j.val; omega)

end Cert.KernelIdeal.Boundary

end
-- ==== Proof.NodeBlock.lean ====
/-
  What the node projection's body stores for one block of 5000 rows: entry (p, q) of the stored block is the inner
  product of row p of the loaded input block with column q of the loaded (already transposed) weights, plus entry q
  of the loaded bias row.  The narrowing to bf16 before the product is the identity on extended reals, the product into
  a zero accumulator is the plain sum over the contracted axis, and the bias row is copied down the 5000 rows.
-/
import proofs.«165736_j15401752724191_1_alg».proof.Proof.Gen.KernelIdeal.Skeleton
import proofs.«165736_j15401752724191_1_alg».proof.Proof.Linear
import Idealize.ShloMosaic.Lib.Pipeline.Value
import Idealize.ShloMosaic.Lib.ValueIdx
import Idealize.ShloMosaic.PureOps.Ideal.Laws

noncomputable section

namespace Cert.KernelIdeal.NodeBlock

open Idealize.ShloMosaic Idealize.ShloMosaic.TcCoe Idealize.ShloMosaic.ValueIdx Cert.KernelIdeal Cert.KernelIdeal.Gen

/-! ## The block product's operand entries: output entry (i₀, i₁) and contraction position k read the left operand at
    (i₀, k) and the right operand at (k, i₁) -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at entry (p, q): the sum over the 128 contracted positions of the
    left operand's row p against the right operand's column q. -/
theorem product_apply (a : FVec Ideal S5000x128 .bf16) (b : FVec Ideal S128x128 .bf16) (p : Fin 5000) (q : Fin 128) :
    matmul (F := Ideal) dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row copied down the block's rows, at entry (p, q): the row's entry q. -/
theorem bias_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE BODY'S STORED VALUE at entry (p, q) of the block, from the three loaded blocks. -/
theorem payload_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, product_apply, bias_apply, shapeCast_self, shapeCast_self]
  rfl

/-- The same against WHOLE arrays the blocks were cut from: if row p of the input block is row r of the input array
    and the weights and the bias row are loaded whole, the stored entry is the affine map's entry (r, q). -/
theorem payload_eq_linT (x0 : Vec Ideal S5000x128 .f32) (x1 : Vec Ideal S128x128 .f32) (x2 : Vec Ideal S1x128 .f32)
    (X : FVec Ideal ⟨2, ![100000, 128]⟩ .f32) (Wt : FVec Ideal ⟨2, ![128, 128]⟩ .f32) (B : FVec Ideal ⟨2, ![1, 128]⟩ .f32)
    (r : Fin 100000) (p : Fin 5000) (q : Fin 128)
    (h0 : ∀ k : Fin 128, x0 (ix2 p k) = X (ix2 r k)) (h1 : ∀ k : Fin 128, x1 (ix2 k q) = Wt (ix2 k q))
    (h2 : x2 (ix2 (0 : Fin 1) q) = B (ix2 (0 : Fin 1) q)) :
    k0_pay1 (F := Ideal) x0 x1 x2 (ix2 p q) = Cert.Linear.linT 100000 128 128 X Wt B (ix2 r q) := by
  rw [payload_apply, Cert.Linear.linT_ix2, h2]
  exact congrArg (· + B (ix2 (0 : Fin 1) q)) (Finset.sum_congr rfl fun k _ => by rw [h0 k, h1 k])

end Cert.KernelIdeal.NodeBlock

end
-- ==== Proof.NodeRegion.lean ====
/-
  The node projection's output array after its pallas_call, as ONE function of the arrays the region finds.
  The grid has 20 points; point t reads rows 5000·t … 5000·t + 4999 of the input (all 128 columns), the whole
  transposed weight matrix and the whole bias row, and writes rows 5000·t … 5000·t + 4999 of the output.  So what
  point t writes back is block t of the affine map of the whole arrays, the 20 blocks tile the 100000 rows, and
  the array ends holding that affine map.
-/
import proofs.«165736_j15401752724191_1_alg».proof.Proof.Gen.KernelIdeal.Frame
import proofs.«165736_j15401752724191_1_alg».proof.Proof.NodeBlock

set_option maxRecDepth 16384

noncomputable section

namespace Cert.KernelIdeal.NodeRegion

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The blocks and the arrays, each named at its literal type -/

abbrev xblk (c : Dev nD) (t : Fin cfg0.N) : Vec Ideal S5000x128 .f32 := iblk0 V c 0 t
abbrev wblk (c : Dev nD) (t : Fin cfg0.N) : Vec Ideal S128x128 .f32 := iblk0 V c 1 t
abbrev bblk (c : Dev nD) (t : Fin cfg0.N) : Vec Ideal S1x128 .f32 := iblk0 V c 2 t
abbrev xarr (c : Dev nD) : FVec Ideal ⟨2, ![100000, 128]⟩ .f32 := V c main_arg0
abbrev warr (c : Dev nD) : FVec Ideal ⟨2, ![128, 128]⟩ .f32 := V c main_v0
abbrev barr (c : Dev nD) : FVec Ideal ⟨2, ![1, 128]⟩ .f32 := V c main_v1

/-- The region's result as a function of the arrays it finds. -/
abbrev result (c : Dev nD) : FVec Ideal ⟨2, ![100000, 128]⟩ .f32 :=
  Cert.Linear.linT 100000 128 128 (xarr V c) (warr V c) (barr V c)

theorem hz : (![0, 0] : Fin 2 → Nat) = fun _ => 0 := funext fun a => by fin_cases a <;> rfl

/-- The printed index maps over the grid: the input and the output move down the rows with the point, the weights
    and the bias row stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of the array. -/
def row (t : Fin cfg0.N) (p : Fin 5000) : Fin 100000 :=
  ⟨t.val * 5000 + p.val, by have ht : t.val < 20 := t.isLt; have hp : p.val < 5000 := p.isLt; omega⟩

/-! ## Each window's block read where the array holds it -/

theorem read_x (c : Dev nD) (t : Fin cfg0.N) (p : Fin 5000) (k : Fin 128) :
    xblk V c t (ix2 p k) = xarr V c (ix2 (row t p) k) := by
  show V c main_arg0 (((cfg0.win 0).blk t).view.emb (ix2 p k)) = V c main_arg0 (ix2 (row t p) k)
  refine congrArg (V c main_arg0) ?_
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_w (c : Dev nD) (t : Fin cfg0.N) (k : Fin 128) (q : Fin 128) :
    wblk V c t (ix2 k q) = warr V c (ix2 k q) := by
  show V c main_v0 (((cfg0.win 1).blk t).view.emb (ix2 k q)) = V c main_v0 (ix2 k q)
  refine congrArg (V c main_v0) ?_
  obtain ⟨-, -, e2, e3, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem read_b (c : Dev nD) (t : Fin cfg0.N) (q : Fin 128) :
    bblk V c t (ix2 (0 : Fin 1) q) = barr V c (ix2 (0 : Fin 1) q) := by
  show V c main_v1 (((cfg0.win 2).blk t).view.emb (ix2 (0 : Fin 1) q)) = V c main_v1 (ix2 (0 : Fin 1) q)
  refine congrArg (V c main_v1) ?_
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Entry (p, q) of point t's output block sits at entry (5000·t + p, q) of the output array. -/
theorem emb_out (t : Fin cfg0.N) (p : Fin 5000) (q : Fin 128) :
    ((cfg0.win 3).blk t).view.emb (ix2 p q) = (ix2 (row t p) q : S100000x128.Idx) := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-! ## What a point writes back, the cover, the array -/

/-- WHAT POINT t WRITES BACK is block t of the affine map of the arrays the region finds. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (xblk V c t) (wblk V c t) (bblk V c t) (ix2 p q) = result V c (((cfg0.win 3).blk t).view.emb (ix2 p q))
  refine Eq.trans ?_ (congrArg (result V c) (emb_out t p q).symm)
  exact NodeBlock.payload_eq_linT (xblk V c t) (wblk V c t) (bblk V c t) (xarr V c) (warr V c) (barr V c) (row t p) p q
    (fun k => read_x V c t p k) (fun k => read_w V c t k q) (read_b V c t q)

/-- An entry of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every entry is in the block of the point its row falls to: row r belongs to point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨-, -, -, -, -, -, e6, e7⟩ := idx_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk]
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; omega
  | ⟨1, _⟩ => show win0_3.index ⟨(i 0).val / 5000, hlt⟩ (1 : Fin 2) * 128 ≤ (i 1).val ∧ (i 1).val < win0_3.index ⟨(i 0).val / 5000, hlt⟩ (1 : Fin 2) * 128 + 128; omega

/-- THE ARRAY after the region: the affine map of the arrays the region finds. -/
theorem final (c : Dev nD) : (dat0 V c).arrAt 3 cfg0.N = result V c :=
  (dat0 V c).arrAt_eq_of_cover 3 (result V c) (fun t _ => flushed_eq V c t) cover

end Cert.KernelIdeal.NodeRegion

end
-- ==== Proof.EdgeBlock.lean ====
/-
  What the edge projection's body stores for one block of 5000 rows: entry (p, q) of the stored block is the inner
  product of row p of the loaded input block with column q of the loaded (already transposed) weights, plus entry q
  of the loaded bias row.  The narrowing to bf16 before the product is the identity on extended reals, the product into
  a zero accumulator is the plain sum over the contracted axis, and the bias row is copied down the 5000 rows.
-/
import proofs.«165736_j15401752724191_1_alg».proof.Proof.Gen.KernelIdeal.Skeleton
import proofs.«165736_j15401752724191_1_alg».proof.Proof.Linear
import Idealize.ShloMosaic.Lib.Pipeline.Value
import Idealize.ShloMosaic.Lib.ValueIdx
import Idealize.ShloMosaic.PureOps.Ideal.Laws

noncomputable section

namespace Cert.KernelIdeal.EdgeBlock

open Idealize.ShloMosaic Idealize.ShloMosaic.TcCoe Idealize.ShloMosaic.ValueIdx Cert.KernelIdeal Cert.KernelIdeal.Gen

/-! ## The block product's operand entries: output entry (i₀, i₁) and contraction position k read the left operand at
    (i₀, k) and the right operand at (k, i₁) -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into the zero accumulator, at entry (p, q): the sum over the 256 contracted positions of the
    left operand's row p against the right operand's column q. -/
theorem product_apply (a : FVec Ideal S5000x256 .bf16) (b : FVec Ideal S256x128 .bf16) (p : Fin 5000) (q : Fin 128) :
    matmul (F := Ideal) dot_S5000x256_S256x128_S5000x128_1_0_0_1_n_n none a b (constant S5000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias row copied down the block's rows, at entry (p, q): the row's entry q. -/
theorem bias_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE BODY'S STORED VALUE at entry (p, q) of the block, from the three loaded blocks. -/
theorem payload_apply (x0 : Vec Ideal S5000x256 .f32) (x1 : Vec Ideal S256x128 .f32) (x2 : Vec Ideal S1x128 .f32)
    (p : Fin 5000) (q : Fin 128) :
    k1_pay1 (F := Ideal) x0 x1 x2 (ix2 p q) = (∑ k : Fin 256, x0 (ix2 p k) * x1 (ix2 k q)) + x2 (ix2 (0 : Fin 1) q) := by
  unfold k1_pay1
  rw [addf_apply, product_apply, bias_apply, shapeCast_self, shapeCast_self, shapeCast_self]
  rfl

/-- The same against WHOLE arrays the blocks were cut from: if row p of the input block is row r of the input array
    and the weights and the bias row are loaded whole, the stored entry is the affine map's entry (r, q). -/
theorem payload_eq_linT (x0 : Vec Ideal S5000x256 .f32) (x1 : Vec Ideal S256x128 .f32) (x2 : Vec Ideal S1x128 .f32)
    (X : FVec Ideal ⟨2, ![500000, 256]⟩ .f32) (Wt : FVec Ideal ⟨2, ![256, 128]⟩ .f32) (B : FVec Ideal ⟨2, ![1, 128]⟩ .f32)
    (r : Fin 500000) (p : Fin 5000) (q : Fin 128)
    (h0 : ∀ k : Fin 256, x0 (ix2 p k) = X (ix2 r k)) (h1 : ∀ k : Fin 256, x1 (ix2 k q) = Wt (ix2 k q))
    (h2 : x2 (ix2 (0 : Fin 1) q) = B (ix2 (0 : Fin 1) q)) :
    k1_pay1 (F := Ideal) x0 x1 x2 (ix2 p q) = Cert.Linear.linT 500000 256 128 X Wt B (ix2 r q) := by
  rw [payload_apply, Cert.Linear.linT_ix2, h2]
  exact congrArg (· + B (ix2 (0 : Fin 1) q)) (Finset.sum_congr rfl fun k _ => by rw [h0 k, h1 k])

end Cert.KernelIdeal.EdgeBlock

end
-- ==== Proof.EdgeRegion.lean ====
/-
  The edge projection's output array after its pallas_call, as ONE function of the arrays the region finds.
  The grid has 100 points; point t reads rows 5000·t … 5000·t + 4999 of the input (all 256 columns), the whole
  transposed weight matrix and the whole bias row, and writes rows 5000·t … 5000·t + 4999 of the output.  So what
  point t writes back is block t of the affine map of the whole arrays, the 100 blocks tile the 500000 rows, and
  the array ends holding that affine map.
-/
import proofs.«165736_j15401752724191_1_alg».proof.Proof.Gen.KernelIdeal.Frame
import proofs.«165736_j15401752724191_1_alg».proof.Proof.EdgeBlock

set_option maxRecDepth 16384

noncomputable section

namespace Cert.KernelIdeal.EdgeRegion

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The blocks and the arrays, each named at its literal type -/

abbrev xblk (c : Dev nD) (t : Fin cfg1.N) : Vec Ideal S5000x256 .f32 := iblk1 V c 0 t
abbrev wblk (c : Dev nD) (t : Fin cfg1.N) : Vec Ideal S256x128 .f32 := iblk1 V c 1 t
abbrev bblk (c : Dev nD) (t : Fin cfg1.N) : Vec Ideal S1x128 .f32 := iblk1 V c 2 t
abbrev xarr (c : Dev nD) : FVec Ideal ⟨2, ![500000, 256]⟩ .f32 := V c main_v11
abbrev warr (c : Dev nD) : FVec Ideal ⟨2, ![256, 128]⟩ .f32 := V c main_v12
abbrev barr (c : Dev nD) : FVec Ideal ⟨2, ![1, 128]⟩ .f32 := V c main_v13

/-- The region's result as a function of the arrays it finds. -/
abbrev result (c : Dev nD) : FVec Ideal ⟨2, ![500000, 128]⟩ .f32 :=
  Cert.Linear.linT 500000 256 128 (xarr V c) (warr V c) (barr V c)

theorem hz : (![0, 0] : Fin 2 → Nat) = fun _ => 0 := funext fun a => by fin_cases a <;> rfl

/-- The printed index maps over the grid: the input and the output move down the rows with the point, the weights
    and the bias row stay at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 5000·t + p of the array (100 points). -/
def row (t : Fin cfg1.N) (p : Fin 5000) : Fin 500000 :=
  ⟨t.val * 5000 + p.val, by have ht : t.val < 100 := t.isLt; have hp : p.val < 5000 := p.isLt; omega⟩

/-! ## Each window's block read where the array holds it -/

theorem read_x (c : Dev nD) (t : Fin cfg1.N) (p : Fin 5000) (k : Fin 256) :
    xblk V c t (ix2 p k) = xarr V c (ix2 (row t p) k) := by
  show V c main_v11 (((cfg1.win 0).blk t).view.emb (ix2 p k)) = V c main_v11 (ix2 (row t p) k)
  refine congrArg (V c main_v11) ?_
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 256 + 1 * k.val = k.val; omega

theorem read_w (c : Dev nD) (t : Fin cfg1.N) (k : Fin 256) (q : Fin 128) :
    wblk V c t (ix2 k q) = warr V c (ix2 k q) := by
  show V c main_v12 (((cfg1.win 1).blk t).view.emb (ix2 k q)) = V c main_v12 (ix2 k q)
  refine congrArg (V c main_v12) ?_
  obtain ⟨-, -, e2, e3, -⟩ := idx_facts t
  funext a; apply Fin.ext
  match a with
  | ⟨0, _⟩ => show win1_1.index t (0 : Fin 2) * 256 + 1 * k.val = k.val; omega
  | ⟨1, _⟩ => show win1_1.index t (1 : Fin 2) * 128 + 1 * q.val = q.val; omega

theorem read_b (c : Dev nD) (t : Fin cfg1.N) (q : Fin 128) :
    bblk V c t (ix2 (0 : Fin 1) q) = barr V c (ix2 (0 : Fin 1) q) := by
  show V c main_v13 (((cfg1.win 2).blk t).view.emb (ix2 (0 : Fin 1) q)) = V c main_v13 (ix2 (0 : Fin 1) q)
  refine congrArg (V c main_v13) ?_
  obtain ⟨-, -, -, -, e4, e5, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Entry (p, q) of point t's output block sits at entry (5000·t + p, q) of the output array. -/
theorem emb_out (t : Fin cfg1.N) (p : Fin 5000) (q : Fin 128) :
    ((cfg1.win 3).blk t).view.emb (ix2 p q) = (ix2 (row t p) q : S500000x128.Idx) := by
  obtain ⟨-, -, -, -, -, -, e6, e7⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-! ## What a point writes back, the cover, the array -/

/-- WHAT POINT t WRITES BACK is block t of the affine map of the arrays the region finds. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (xblk V c t) (wblk V c t) (bblk V c t) (ix2 p q) = result V c (((cfg1.win 3).blk t).view.emb (ix2 p q))
  refine Eq.trans ?_ (congrArg (result V c) (emb_out t p q).symm)
  exact EdgeBlock.payload_eq_linT (xblk V c t) (wblk V c t) (bblk V c t) (xarr V c) (warr V c) (barr V c) (row t p) p q
    (fun k => read_x V c t p k) (fun k => read_w V c t k q) (read_b V c t q)

/-- An entry of the array is in point t's block iff each coordinate is in the block's range on its axis. -/
theorem mem_blk (t : Fin cfg1.N) (i : S500000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v14).slice (win1_3.rect t)).set ↔ _
  rw [View.set_slice_whole, Rect.mem_set_unit]
  exact Iff.rfl

/-- Every entry is in the block of the point its row falls to: row r belongs to point r / 5000 (of 100). -/
theorem cover (i : S500000x128.Idx) : ∃ t : Fin cfg1.N, (cfg1.win 3).flush t = true ∧ i ∈ ((cfg1.win 3).blk t).view.set := by
  have hi0 : (i 0).val < 500000 := (i 0).isLt
  have hi1 : (i 1).val < 128 := (i 1).isLt
  have hlt : (i 0).val / 5000 < 100 := by omega
  obtain ⟨-, -, -, -, -, -, e6, e7⟩ := idx_facts ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_blk]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 128 ≤ (i 1).val ∧ (i 1).val < win1_3.index ⟨(i 0).val / 5000, hlt⟩ (1 : Fin 2) * 128 + 128; omega

/-- THE ARRAY after the region: the affine map of the arrays the region finds. -/
theorem final (c : Dev nD) : (dat1 V c).arrAt 3 cfg1.N = result V c :=
  (dat1 V c).arrAt_eq_of_cover 3 (result V c) (fun t _ => flushed_eq V c t) cover

end Cert.KernelIdeal.EdgeRegion

end
-- ==== Proof.KernelValue.lean ====
/-
  The idealized kernel's run with both result arrays as functions of the launch memory: the node result is the
  affine map of the node features, the stored node weights and the node bias; the edge result is the same map of the
  edge input (built by the host from the node features and the edge index array), the stored edge weights and the
  edge bias.  Each pallas_call leaves the affine map of what it finds, with the weights already transposed and the
  bias as a row; read back at the stored weights and the bias vector this is the layer's own formula.
-/
import proofs.«165736_j15401752724191_1_alg».proof.Proof.RunNamed
import proofs.«165736_j15401752724191_1_alg».proof.Proof.Boundary
import proofs.«165736_j15401752724191_1_alg».proof.Proof.NodeRegion
import proofs.«165736_j15401752724191_1_alg».proof.Proof.EdgeRegion

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The node result at the end of the run. -/
theorem node_result (c : Dev nD) :
    W4 m ρ c (Proc.devRef .tc main_v2)
      = Cert.Linear.lin 100000 128 128 (m ((c : Thread nD τ).loc main_arg0)) (m ((c : Thread nD τ).loc main_arg4)) (m ((c : Thread nD τ).loc main_arg5)) := by
  refine (Boundary.W4_node m ρ c).trans ((NodeRegion.final (V1 m ρ) c).trans ?_)
  show Cert.Linear.linT 100000 128 128 (V1 m ρ c main_arg0) (V1 m ρ c main_v0) (V1 m ρ c main_v1) = _
  rw [Boundary.V1_x m ρ c, Boundary.V1_wt m ρ c, Boundary.V1_b m ρ c]
  exact Cert.Linear.linT_eq_lin 100000 128 128 _ _ _ _ _ (fun k j => Boundary.nodeWt_apply _ k j) (fun j => Boundary.biasRow_apply _ j)

/-- The edge result at the end of the run. -/
theorem edge_result (c : Dev nD) :
    W4 m ρ c (Proc.devRef .tc main_v14)
      = Cert.Linear.lin 500000 256 128 (Boundary.edgeInput (m ((c : Thread nD τ).loc main_arg0)) (m ((c : Thread nD τ).loc main_arg1)))
          (m ((c : Thread nD τ).loc main_arg6)) (m ((c : Thread nD τ).loc main_arg7)) := by
  refine (Boundary.W4_edge m ρ c).trans ((EdgeRegion.final (V3 m ρ) c).trans ?_)
  show Cert.Linear.linT 500000 256 128 (V3 m ρ c main_v11) (V3 m ρ c main_v12) (V3 m ρ c main_v13) = _
  rw [Boundary.V3_x m ρ c, Boundary.V3_wt m ρ c, Boundary.V3_b m ρ c]
  exact Cert.Linear.linT_eq_lin 500000 256 128 _ _ _ _ _ (fun k j => Boundary.edgeWt_apply _ k j) (fun j => Boundary.biasRow_apply _ j)

/-- THE RUN: every weakly fair execution ends with the two results at those functions and the arguments as launched. -/
theorem run : θ_run defs (onTc (τ := τ) (main (F := Ideal))) ⟨m, fun _ => 0, ρ⟩ (fun r => ∀ c : Dev nD,
      r.2.mem ((c.tc : Thread nD τ).loc main_v2)
        = Cert.Linear.lin 100000 128 128 (m ((c : Thread nD τ).loc main_arg0)) (m ((c : Thread nD τ).loc main_arg4)) (m ((c : Thread nD τ).loc main_arg5))
      ∧ r.2.mem ((c.tc : Thread nD τ).loc main_v14)
        = Cert.Linear.lin 500000 256 128 (Boundary.edgeInput (m ((c : Thread nD τ).loc main_arg0)) (m ((c : Thread nD τ).loc main_arg1)))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (node_result m ρ c), (h c).2.1.trans (edge_result m ρ c), (h c).2.2⟩)
    (run_named (F := Ideal) m ρ)

end Cert.KernelIdeal.KernelValue

end
-- ==== Proof.lean ====
/-
  Two affine layers of a graph network, `node_out = x · Wₙᵀ + bₙ` over 100000 nodes and `edge_out = e · Wₑᵀ + bₑ` over
  500000 edges, where row `i` of the edge input `e` is the feature rows of edge `i`'s two endpoints side by side.
  The kernel runs each layer as a pallas_call over blocks of 5000 rows (operands narrowed to bf16 before the block
  product, weights transposed and bias reshaped to a row by the host beforehand); the reference runs each as one host
  `dot_general` plus a broadcast bias.  Both build the edge input by the same host operations.

  Over the extended reals the narrowing is the identity, a block product into a zero accumulator is the plain sum over
  the contracted axis, and the host's `dot_general` is the same sum; so entry (r, j) of either result is
  `∑ₖ x[r, k] · W[j, k] + b[j]` on both sides, the same products summed in the same order.  No law that fails at
  infinities is used, and the precondition is never opened.  The idealization rewrote no operation, so the kernel's
  idealized program is its own text read over the extended reals.

  The frames of the two kernel programs are the generated frame certificates; the reference's frame is its generated
  run with the results dropped.
-/
import proofs.«165736_j15401752724191_1_alg».proof.Defs
import proofs.«165736_j15401752724191_1_alg».proof.Proof.Gen.Kernel
import proofs.«165736_j15401752724191_1_alg».proof.Proof.Gen.Kernel.Frame
import proofs.«165736_j15401752724191_1_alg».proof.Proof.Gen.KernelIdeal
import proofs.«165736_j15401752724191_1_alg».proof.Proof.Gen.KernelIdeal.Frame
import proofs.«165736_j15401752724191_1_alg».proof.Proof.Gen.ReferenceIdeal
import proofs.«165736_j15401752724191_1_alg».proof.Proof.Gen.ReferenceIdeal.Run
import proofs.«165736_j15401752724191_1_alg».proof.Proof.Gen.ReferenceIdeal.Read
import proofs.«165736_j15401752724191_1_alg».proof.Proof.Gen.Pre_finite_inputs
import proofs.«165736_j15401752724191_1_alg».proof.Proof.RefValue
import proofs.«165736_j15401752724191_1_alg».proof.Proof.KernelValue
import Idealize.ShloMosaic.Adequacy
import Idealize.ShloMosaic.Init

noncomputable section

namespace Cert.Proof

open Idealize.ShloMosaic Idealize.ShloMosaic.TcCoe Idealize.SL.Sem

/-- The edge input is ONE function of the node features and the edge index array in both programs: the same host
    operations in the same order, applied to the same two arguments. -/
theorem edgeInput_eq (x0 : (⟨Cert.KernelIdeal.S100000x128, .f32⟩ : BufTy).Contents (Elt Ideal))
    (x1 : (⟨Cert.KernelIdeal.S2x500000, .i32⟩ : BufTy).Contents (Elt Ideal)) :
    Cert.ReferenceIdeal.Read.val_main_v13 (F := Ideal) x0 x1 = Cert.KernelIdeal.Boundary.edgeInput x0 x1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the node result at the affine map of the node
    features, weights and bias, the edge result at the affine map of the edge input, edge weights and edge bias, and
    the index array and the global features handed through unchanged. -/
theorem algebraic : Cert.algebraic_KernelIdeal_ReferenceIdeal := by
  intro m ρ m' ρ' _ hagree
  refine ⟨fun c => Cert.Linear.lin 100000 128 128 (m ((c : Thread Cert.KernelIdeal.nD Cert.KernelIdeal.τ).loc Cert.KernelIdeal.main_arg0))
            (m ((c : Thread Cert.KernelIdeal.nD Cert.KernelIdeal.τ).loc Cert.KernelIdeal.main_arg4))
            (m ((c : Thread Cert.KernelIdeal.nD Cert.KernelIdeal.τ).loc Cert.KernelIdeal.main_arg5)),
          fun c => m ((c : Thread Cert.KernelIdeal.nD Cert.KernelIdeal.τ).loc Cert.KernelIdeal.main_arg1),
          fun c => Cert.Linear.lin 500000 256 128
            (Cert.KernelIdeal.Boundary.edgeInput (m ((c : Thread Cert.KernelIdeal.nD Cert.KernelIdeal.τ).loc Cert.KernelIdeal.main_arg0))
              (m ((c : Thread Cert.KernelIdeal.nD Cert.KernelIdeal.τ).loc Cert.KernelIdeal.main_arg1)))
            (m ((c : Thread Cert.KernelIdeal.nD Cert.KernelIdeal.τ).loc Cert.KernelIdeal.main_arg6))
            (m ((c : Thread Cert.KernelIdeal.nD Cert.KernelIdeal.τ).loc Cert.KernelIdeal.main_arg7)),
          fun c => m ((c : Thread Cert.KernelIdeal.nD Cert.KernelIdeal.τ).loc Cert.KernelIdeal.main_arg3), ?_, ?_⟩
  · refine (θ_run Cert.KernelIdeal.defs _ _).mono (fun r h c => ?_) (Cert.KernelIdeal.KernelValue.run m ρ)
    obtain ⟨hn, he, a0, a1, a2, a3, a4, a5, a6, a7⟩ := h c
    exact ⟨hn, a1, he, a3, a0, a1, a2, a3, a4, a5, a6, a7⟩
  · refine (θ_run Cert.ReferenceIdeal.defs _ _).mono (fun r h c => ?_) (Cert.ReferenceIdeal.Value.run (F := Ideal) m' ρ')
    obtain ⟨hn, b1, he, b3, a0, a1, a2, a3, a4, a5, a6, a7⟩ := h c
    obtain ⟨g0, g1, g2, g3, g4, g5, g6, g7⟩ := hagree c
    refine ⟨hn.trans ?_, b1.trans g1, he.trans ?_, b3.trans g3, a0, a1, a2, a3, a4, a5, a6, a7⟩
    · rw [g0, g4, g5]
      exact (Cert.ReferenceIdeal.Read.val_main_v4_eq _ _ _).trans (Cert.ReferenceIdeal.RefValue.node_eq _ _ _)
    · rw [g0, g1, g6, g7]
      refine (Cert.ReferenceIdeal.Read.val_main_v18_eq _ _ _ _).trans ((Cert.ReferenceIdeal.RefValue.edge_eq _ _ _ _).trans ?_)
      rw [edgeInput_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
